-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S48x262144 : Shape := ⟨2, ![48, 262144]⟩
abbrev S48x4 : Shape := ⟨2, ![48, 4]⟩
abbrev S24x32768 : Shape := ⟨2, ![24, 32768]⟩
abbrev S24x4 : Shape := ⟨2, ![24, 4]⟩
abbrev S24 : Shape := ⟨1, ![24]⟩
abbrev S24x1 : Shape := ⟨2, ![24, 1]⟩
abbrev S16x3x4 : Shape := ⟨3, ![16, 3, 4]⟩

abbrev nBuf : Space → Nat
  | .hbm => 6
  | .vmem => 7
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S48x262144, .f32⟩
  | .hbm, ⟨3, _⟩ => ⟨S48x262144, .f32⟩
  | .hbm, ⟨4, _⟩ => ⟨S48x4, .f32⟩
  | .hbm, ⟨5, _⟩ => ⟨S16x3x4, .f32⟩
  | .local _ .vmem, ⟨0, _⟩ => ⟨S24x32768, .f32⟩
  | .local _ .vmem, ⟨1, _⟩ => ⟨S24x32768, .f32⟩
  | .local _ .vmem, ⟨2, _⟩ => ⟨S24x32768, .f32⟩
  | .local _ .vmem, ⟨3, _⟩ => ⟨S24x32768, .f32⟩
  | .local _ .vmem, ⟨4, _⟩ => ⟨S24x4, .f32⟩
  | .local _ .vmem, ⟨5, _⟩ => ⟨S24x4, .f32⟩
  | .local _ .vmem, ⟨6, _⟩ => ⟨S24x4, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S24x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S24x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S24x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x3x512x512_S48x262144 : S16x3x512x512.ShapeCasts S48x262144
  inb_S24x4_S24x4_0_0 : ∀ a, (![0, 0] : Fin 2 → Nat) a + S24x4.size a ≤ S24x4.size a
  h_S24x4 : 0 < S24x4.numel
  shapeCasts_S24x4_S24x4 : S24x4.ShapeCasts S24x4
  inb_S24x32768_S24x32768_0_0 : ∀ a, (![0, 0] : Fin 2 → Nat) a + S24x32768.size a ≤ S24x32768.size a
  h_S24x32768 : 0 < S24x32768.numel
  shapeCasts_S24x32768_S24x32768 : S24x32768.ShapeCasts S24x32768
  reduces_S24x32768_S24 : S24x32768.Reduces [1] S24
  shapeCasts_S24_S24x1 : S24.ShapeCasts S24x1
  concatenates_S24x1_S24x1_S24x1_S24x1_S24x4_d1 : Shape.Concatenates [S24x1, S24x1, S24x1, S24x1] S24x4 1
  shapeCasts_S48x4_S16x3x4 : S48x4.ShapeCasts S16x3x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x32768.size a ≤ S48x262144.size a
  hwx0_0 : ∀ i : grid0.Coords, EltTy.bits .f32 = 32 ∨ (Rect.block (s := S48x262144) S24x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S24x32768.size a ≤ S48x262144.size a
  hwx0_1 : ∀ i : grid0.Coords, EltTy.bits .f32 = 32 ∨ (Rect.block (s := S48x262144) S24x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S24x4.size a ≤ S48x4.size a
  hwx0_2 : ∀ i : grid0.Coords, EltTy.bits .f32 = 32 ∨ (Rect.block (s := S48x4) S24x4.size (cc0_transform_2 i) (hinb0_2 i)).WholeWords (EltTy.packing .f32)

variable [Facts₀]

abbrev win0_0 : Pipeline.Window sig grid0 :=
  Pipeline.Window.ofSpec (Memref.whole main_v0) S24x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S24x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S24x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x3x512x512 : Shape := ⟨4, ![16, 3, 512, 512]⟩
abbrev S16x3x262144 : Shape := ⟨3, ![16, 3, 262144]⟩
abbrev S_ : Shape := ⟨0, ![]⟩
abbrev S16x3 : Shape := ⟨2, ![16, 3]⟩
abbrev S16x3x1 : Shape := ⟨3, ![16, 3, 1]⟩
abbrev S16x3x4 : Shape := ⟨3, ![16, 3, 4]⟩

abbrev nBuf : Space → Nat
  | .hbm => 33
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x262144, .f32⟩
  | .hbm, ⟨3, _⟩ => ⟨S16x3x262144, .f32⟩
  | .hbm, ⟨4, _⟩ => ⟨S16x3x262144, .f32⟩
  | .hbm, ⟨5, _⟩ => ⟨S_, .f32⟩
  | .hbm, ⟨6, _⟩ => ⟨S16x3, .f32⟩
  | .hbm, ⟨7, _⟩ => ⟨S_, .f32⟩
  | .hbm, ⟨8, _⟩ => ⟨S16x3x262144, .f32⟩
  | .hbm, ⟨9, _⟩ => ⟨S16x3x262144, .f32⟩
  | .hbm, ⟨10, _⟩ => ⟨S_, .f32⟩
  | .hbm, ⟨11, _⟩ => ⟨S16x3x262144, .f32⟩
  | .hbm, ⟨12, _⟩ => ⟨S16x3x262144, .f32⟩
  | .hbm, ⟨13, _⟩ => ⟨S16x3x262144, .f32⟩
  | .hbm, ⟨14, _⟩ => ⟨S_, .f32⟩
  | .hbm, ⟨15, _⟩ => ⟨S16x3, .f32⟩
  | .hbm, ⟨16, _⟩ => ⟨S_, .f32⟩
  | .hbm, ⟨17, _⟩ => ⟨S16x3x262144, .f32⟩
  | .hbm, ⟨18, _⟩ => ⟨S16x3x262144, .f32⟩
  | .hbm, ⟨19, _⟩ => ⟨S16x3x262144, .f32⟩
  | .hbm, ⟨20, _⟩ => ⟨S_, .f32⟩
  | .hbm, ⟨21, _⟩ => ⟨S16x3, .f32⟩
  | .hbm, ⟨22, _⟩ => ⟨S_, .f32⟩
  | .hbm, ⟨23, _⟩ => ⟨S16x3x262144, .f32⟩
  | .hbm, ⟨24, _⟩ => ⟨S16x3x262144, .f32⟩
  | .hbm, ⟨25, _⟩ => ⟨S16x3x262144, .f32⟩
  | .hbm, ⟨26, _⟩ => ⟨S_, .f32⟩
  | .hbm, ⟨27, _⟩ => ⟨S16x3, .f32⟩
  | .hbm, ⟨28, _⟩ => ⟨S16x3x1, .f32⟩
  | .hbm, ⟨29, _⟩ => ⟨S16x3x1, .f32⟩
  | .hbm, ⟨30, _⟩ => ⟨S16x3x1, .f32⟩
  | .hbm, ⟨31, _⟩ => ⟨S16x3x1, .f32⟩
  | .hbm, ⟨32, _⟩ => ⟨S16x3x4, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  shapeCasts_S16x3x512x512_S16x3x262144 : S16x3x512x512.ShapeCasts S16x3x262144
  reducesTo_S16x3x262144_S16x3_d2 : S16x3x262144.ReducesTo [2] S16x3
  h_S_ : 0 < S_.numel
  bcast_S_S16x3x262144 : S_.BroadcastsInDim S16x3x262144 (![] : Fin 0 → Fin S16x3x262144.rank)
  bcast_S16x3_S16x3x1_0_1 : S16x3.BroadcastsInDim S16x3x1 (![0, 1] : Fin 2 → Fin S16x3x1.rank)
  concatenates_S16x3x1_S16x3x1_S16x3x1_S16x3x1_S16x3x4_d2 : Shape.Concatenates [S16x3x1, S16x3x1, S16x3x1, S16x3x1] S16x3x4 2

variable [Facts₀]

class Facts : Prop extends Facts₀ where

variable [Facts]
-- ==== Proof.Spec.lean ====
/-
  The confusion-matrix sums, as mathematics.  For a prediction `p` and a truth `t` in the extended reals the four
  products are `p·t`, `(1-p)·(1-t)`, `p·(1-t)` and `(1-p)·t`; entry `q` of a row's result is the sum of product `q`
  over the row's 262144 columns.  A sum over 262144 columns is the sum over eight consecutive chunks of 32768 columns of
  the chunk's sum: addition of extended reals is commutative and associative, so no finiteness is needed.
-/
import Idealize.ShloMosaic.PureOps.Ideal
import Idealize.ShloMosaic.PureOps.Ideal.Laws
import Idealize.ShloMosaic.Lib.ValueIdx

noncomputable section

namespace Cert.Confusion

open Idealize.ShloMosaic Idealize.ShloMosaic.ValueIdx

/-- The float word of `1.0`, read as an extended real (both programs spell the same word, so it is never evaluated). -/
abbrev one : EReal := Ideal.ofBits .f32 0x3F800000#32

/-- Product `q` of a prediction `p` and a truth `t`: true positive, true negative, false positive, false negative. -/
def term (q : Fin 4) (p t : EReal) : EReal :=
  match q with
  | ⟨0, _⟩ => p * t
  | ⟨1, _⟩ => (one - p) * (one - t)
  | ⟨2, _⟩ => p * (one - t)
  | ⟨3, _⟩ => (one - p) * t

theorem term_zero (p t : EReal) : term 0 p t = p * t := rfl
theorem term_one (p t : EReal) : term 1 p t = (one - p) * (one - t) := rfl
theorem term_two (p t : EReal) : term 2 p t = p * (one - t) := rfl
theorem term_three (p t : EReal) : term 3 p t = (one - p) * t := rfl

/-- Column `l` of chunk `k` (for `k < 8` it is `32768 k + l`; total in `k` so that sums over a range of chunks are plain). -/
def col (k : ℕ) (l : Fin 32768) : Fin 262144 := ⟨(32768 * k + l.val) % 262144, Nat.mod_lt _ (by decide)⟩

theorem col_val (k : ℕ) (hk : k < 8) (l : Fin 32768) : (col k l).val = 32768 * k + l.val := by
  have := l.isLt
  show (32768 * k + l.val) % 262144 = _
  omega

/-- Row `p` of row block `i` (for `i < 2` it is `24 i + p`; total in `i` like `col`). -/
def row (i : ℕ) (p : Fin 24) : Fin 48 := ⟨(24 * i + p.val) % 48, Nat.mod_lt _ (by decide)⟩

theorem row_val (i : ℕ) (hi : i < 2) (p : Fin 24) : (row i p).val = 24 * i + p.val := by
  have := p.isLt
  show (24 * i + p.val) % 48 = _
  omega

/-- The sum of product `q` over chunk `k` of row `r` of two [48, 262144] arrays. -/
def chunkSum (P T : (⟨2, ![48, 262144]⟩ : Shape).Idx → EReal) (r : Fin 48) (q : Fin 4) (k : ℕ) : EReal :=
  ∑ l : Fin 32768, term q (P (ix2 r (col k l))) (T (ix2 r (col k l)))

/-- The sum of product `q` over the whole of row `r`. -/
def rowSum (P T : (⟨2, ![48, 262144]⟩ : Shape).Idx → EReal) (r : Fin 48) (q : Fin 4) : EReal :=
  ∑ j : Fin 262144, term q (P (ix2 r j)) (T (ix2 r j))

/-- Eight chunks of 32768 columns are the 262144 columns, each once. -/
theorem sum_chunks (g : Fin 262144 → EReal) :
    ∑ k ∈ Finset.range 8, ∑ l : Fin 32768, g (col k l) = ∑ j : Fin 262144, g j := by
  rw [Finset.sum_range (f := fun k => ∑ l : Fin 32768, g (col k l))]
  rw [← Fintype.sum_prod_type' (f := fun (k : Fin 8) (l : Fin 32768) => g (col k.val l))]
  refine Fintype.sum_equiv (finProdFinEquiv (m := 8) (n := 32768)) _ g (fun x => congrArg g (Fin.ext ?_))
  rw [col_val _ x.1.isLt, finProdFinEquiv_apply_val]
  omega

/-- So a row's sum is the sum of its eight chunk sums. -/
theorem sum_chunkSum (P T : (⟨2, ![48, 262144]⟩ : Shape).Idx → EReal) (r : Fin 48) (q : Fin 4) :
    ∑ k ∈ Finset.range 8, chunkSum P T r q k = rowSum P T r q :=
  sum_chunks fun j => term q (P (ix2 r j)) (T (ix2 r j))

/-- Entry `j` of image `(b, ch)`, the 512 × 512 image laid out row by row: pixel `(j / 512, j % 512)`. -/
def pixel (b : Fin 16) (ch : Fin 3) (j : Fin 262144) : (⟨4, ![16, 3, 512, 512]⟩ : Shape).Idx :=
  ix4 b ch ⟨j.val / 512, by have := j.isLt; omega⟩ ⟨j.val % 512, Nat.mod_lt _ (by decide)⟩

/-- THE RESULT both programs compute: entry `(b, ch, q)` is the sum over the 262144 pixels of image `(b, ch)` of
    product `q` of the prediction and the truth there. -/
def confusion (A0 A1 : (⟨4, ![16, 3, 512, 512]⟩ : Shape).Idx → EReal) : (⟨3, ![16, 3, 4]⟩ : Shape).Idx → EReal :=
  fun i => ∑ j : Fin 262144, term (i 2) (A0 (pixel (i 0) (i 1) j)) (A1 (pixel (i 0) (i 1) j))

end Cert.Confusion

end
-- ==== Proof.Payload.lean ====
/-
  What one grid point adds to the accumulator.  The body multiplies the two [24, 32768] blocks entry by entry in the four
  ways of a confusion matrix, sums each product along the lanes, lays the four column vectors side by side as a [24, 4]
  block and adds that to the accumulator.  So at row `p`, column `q` the new accumulator is the old one plus the sum over
  the block's 32768 lanes of product `q`.
-/
import proofs.«159307_j31198642438436_1_alg».proof.Proof.Spec
import proofs.«159307_j31198642438436_1_alg».proof.Proof.Gen.KernelIdeal.Skeleton
import Idealize.ShloMosaic.Lib.Pipeline.Value
import Idealize.ShloMosaic.PureOps.Ideal.Laws
import Idealize.ShloMosaic.Lib.ValueIdx

noncomputable section

namespace Cert.KernelIdeal.Confusion

open Cert.KernelIdeal Cert.KernelIdeal.Gen Cert.Confusion
open Idealize.ShloMosaic Idealize.ShloMosaic.TcCoe Idealize.ShloMosaic.ValueIdx

/-- The sum of product `q` over the lanes of row `p` of a pair of blocks. -/
def blockSum (x0 x1 : FVec Ideal S24x32768 .f32) (p : Fin 24) (q : Fin 4) : EReal :=
  ∑ l : Fin 32768, term q (x0 (ix2 p l)) (x1 (ix2 p l))

/-- A lane sum kept as a column: the [24] vector of row sums, reshaped to [24, 1], read at `(p, 0)` is row `p`'s sum. -/
theorem column_apply (v : FVec Ideal S24x32768 .f32) (hacc : (0x00000000#32 : BitVec 32) = 0x00000000#32) (p : Fin 24) :
    shapeCast S24x1 (multiReduction (F := Ideal) .add [1] S24 v 0x00000000#32 reduces_S24x32768_S24 (.inl rfl) hacc)
        shapeCasts_S24_S24x1 (ix2 p (0 : Fin 1))
      = ∑ l : Fin 32768, v (ix2 p l) := by
  refine (shapeCast_apply _ shapeCasts_S24_S24x1 (ix2 p (0 : Fin 1)) (ix1 p) (by
    rw [Shape.rowMajor_val_one, Shape.rowMajor_val_two]; show p.val = p.val * 1 + 0; omega)).trans ?_
  refine (Ideal.multiReduction_add_single v 0x00000000#32 reduces_S24x32768_S24 (.inl rfl) hacc (ix1 p)).trans ?_
  refine Finset.sum_congr rfl fun l _ => congrArg v (funext fun a => ?_)
  match a with
  | ⟨0, _⟩ => exact Fin.ext rfl
  | ⟨1, _⟩ => exact Fin.ext rfl

/-- Four [24, 1] columns side by side, read at `(p, q)`: column `q` at `(p, 0)`. -/
theorem columns_apply (c0 c1 c2 c3 : FVec Ideal S24x1 .f32) (p : Fin 24) (q : Fin 4) :
    concatenate S24x4 1 [⟨S24x1, c0⟩, ⟨S24x1, c1⟩, ⟨S24x1, c2⟩, ⟨S24x1, c3⟩]
        concatenates_S24x1_S24x1_S24x1_S24x1_S24x4_d1 (ix2 p q)
      = (match q with | ⟨0, _⟩ => c0 | ⟨1, _⟩ => c1 | ⟨2, _⟩ => c2 | ⟨3, _⟩ => c3) (ix2 p (0 : Fin 1)) := by
  have hoff : ∀ (q' : Fin 4) (b : Fin S24x1.rank), b.cast (rfl : S24x1.rank = S24x4.rank) ≠ (1 : Fin 2) →
      ((ix2 p (0 : Fin 1) : S24x1.Idx) b).val = ((ix2 p q' : S24x4.Idx) (b.cast rfl)).val := by
    intro q' b hb
    match b with
    | ⟨0, _⟩ => rfl
    | ⟨1, _⟩ => exact absurd rfl hb
  match q with
  | ⟨0, hq⟩ => exact concatenate_apply_piece (1 : Fin 2) [⟨S24x1, c0⟩, ⟨S24x1, c1⟩, ⟨S24x1, c2⟩, ⟨S24x1, c3⟩] _ (ix2 p ⟨0, hq⟩) 0 (by simp) S24x1 c0 rfl rfl 0 rfl (ix2 p 0) (hoff _) rfl
  | ⟨1, hq⟩ => exact concatenate_apply_piece (1 : Fin 2) [⟨S24x1, c0⟩, ⟨S24x1, c1⟩, ⟨S24x1, c2⟩, ⟨S24x1, c3⟩] _ (ix2 p ⟨1, hq⟩) 1 (by simp) S24x1 c1 rfl rfl 1 rfl (ix2 p 0) (hoff _) rfl
  | ⟨2, hq⟩ => exact concatenate_apply_piece (1 : Fin 2) [⟨S24x1, c0⟩, ⟨S24x1, c1⟩, ⟨S24x1, c2⟩, ⟨S24x1, c3⟩] _ (ix2 p ⟨2, hq⟩) 2 (by simp) S24x1 c2 rfl rfl 2 rfl (ix2 p 0) (hoff _) rfl
  | ⟨3, hq⟩ => exact concatenate_apply_piece (1 : Fin 2) [⟨S24x1, c0⟩, ⟨S24x1, c1⟩, ⟨S24x1, c2⟩, ⟨S24x1, c3⟩] _ (ix2 p ⟨3, hq⟩) 3 (by simp) S24x1 c3 rfl rfl 3 rfl (ix2 p 0) (hoff _) rfl

/-- The accumulating store's value at `(p, q)`: the accumulator there plus the block's lane sum of product `q`. -/
theorem pay2_apply (x0 x1 : FVec Ideal S24x32768 .f32) (acc : FVec Ideal S24x4 .f32) (p : Fin 24) (q : Fin 4) :
    k0_pay2 (F := Ideal) x0 x1 acc (ix2 p q) = acc (ix2 p q) + blockSum x0 x1 p q := by
  unfold k0_pay2
  dsimp only
  simp only [shapeCast_self]
  refine (addf_apply _ _ _).trans (congrArg (acc (ix2 p q) + ·) ?_)
  refine (columns_apply _ _ _ _ p q).trans ?_
  unfold blockSum
  match q with
  | ⟨0, _⟩ =>
    exact (column_apply _ rfl p).trans (Finset.sum_congr rfl fun l _ => by rw [shapeCast_self x0, shapeCast_self x1]; rfl)
  | ⟨1, _⟩ =>
    exact (column_apply _ rfl p).trans (Finset.sum_congr rfl fun l _ => by rw [shapeCast_self x0, shapeCast_self x1]; rfl)
  | ⟨2, _⟩ =>
    exact (column_apply _ rfl p).trans (Finset.sum_congr rfl fun l _ => by rw [shapeCast_self x0, shapeCast_self x1]; rfl)
  | ⟨3, _⟩ =>
    exact (column_apply _ rfl p).trans (Finset.sum_congr rfl fun l _ => by rw [shapeCast_self x0, shapeCast_self x1]; rfl)

/-- The resetting store's value: the zero block. -/
theorem pay1_apply (j : S24x4.Idx) : k0_pay1 (F := Ideal) j = 0 := by
  unfold k0_pay1
  simp only [shapeCast_self]
  exact Ideal.ofBits_zero_f32

end Cert.KernelIdeal.Confusion

end
-- ==== Proof.Pieces.lean ====
/-
  What each kind of grid point leaves behind, as values.  A point whose lane-chunk number is 0 first stores the zero block
  into the accumulator and then adds its lane sums to it; every other point adds its lane sums to what the point before
  left; the last chunk's point also copies the accumulator into the output block.  In each case the buffer ends holding
  the accumulating store's value, taken at the accumulator the point started from (the zero block after a reset).
-/
import proofs.«159307_j31198642438436_1_alg».proof.Proof.Gen.KernelIdeal.Frame
import Idealize.ShloMosaic.Lib.Pipeline.Value
import Idealize.ShloMosaic.Lib.Tactic

noncomputable section

namespace Cert.KernelIdeal.Confusion

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A point that neither resets nor writes out: the accumulator ends at the update of what it held. -/
theorem sout_B (c : Dev nD) (i : grid0.Coords) (arg2 : Memref sig .tc .vmem S24x32768 .f32) (harg2 : arg2.IsWhole) (arg3 : Memref sig .tc .vmem S24x32768 .f32) (harg3 : arg3.IsWhole) (arg4 : Memref sig .tc .vmem S24x4 .f32) (harg4 : arg4.IsWhole) (arg5 : Memref sig .tc .vmem S24x4 .f32) (harg5 : arg5.IsWhole) (hc0 : ¬cond0_0 i) (hc1 : ¬cond0_1 i)
    (x0 x1 : Vec F S24x32768 .f32) (xs0 : Vec F S24x4 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S24x32768) hz, View.ld_unit_zero (S := S24x4) hz]

/-- A resetting point: the accumulator ends at the update of the zero block. -/
theorem sout_A (c : Dev nD) (i : grid0.Coords) (arg2 : Memref sig .tc .vmem S24x32768 .f32) (harg2 : arg2.IsWhole) (arg3 : Memref sig .tc .vmem S24x32768 .f32) (harg3 : arg3.IsWhole) (arg4 : Memref sig .tc .vmem S24x4 .f32) (harg4 : arg4.IsWhole) (arg5 : Memref sig .tc .vmem S24x4 .f32) (harg5 : arg5.IsWhole) (hc0 : cond0_0 i) (hc1 : ¬cond0_1 i)
    (x0 x1 : Vec F S24x32768 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S24x4) hz, View.readCov_unit_zero (S := S24x4) _ hz]
  simp only [View.readAt_eq_ld, harg2.read_unread, harg3.read_unread, harg5.read_unread, View.ld_unit_zero (S := S24x32768) hz, View.ld_unit_zero (S := S24x4) hz]

/-- A point that writes out: the accumulator ends at the update of what it held, -/
theorem sout_C (c : Dev nD) (i : grid0.Coords) (arg2 : Memref sig .tc .vmem S24x32768 .f32) (harg2 : arg2.IsWhole) (arg3 : Memref sig .tc .vmem S24x32768 .f32) (harg3 : arg3.IsWhole) (arg4 : Memref sig .tc .vmem S24x4 .f32) (harg4 : arg4.IsWhole) (arg5 : Memref sig .tc .vmem S24x4 .f32) (harg5 : arg5.IsWhole) (hc0 : ¬cond0_0 i) (hc1 : cond0_1 i)
    (x0 x1 : Vec F S24x32768 .f32) (xs0 : Vec F S24x4 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S24x32768) hz, View.ld_unit_zero (S := S24x4) hz]

/-- and the output block at the same value: it is the accumulator read back after the update. -/
theorem out_C (c : Dev nD) (i : grid0.Coords) (arg2 : Memref sig .tc .vmem S24x32768 .f32) (harg2 : arg2.IsWhole) (arg3 : Memref sig .tc .vmem S24x32768 .f32) (harg3 : arg3.IsWhole) (arg4 : Memref sig .tc .vmem S24x4 .f32) (harg4 : arg4.IsWhole) (arg5 : Memref sig .tc .vmem S24x4 .f32) (harg5 : arg5.IsWhole) (hc0 : ¬cond0_0 i) (hc1 : cond0_1 i)
    (x0 x1 : Vec F S24x32768 .f32) (xs0 : Vec F S24x4 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S24x4) _ hz]
  simp only [View.readAt_eq_ld, harg2.read_unread, harg3.read_unread, harg5.read_unread, View.ld_unit_zero (S := S24x32768) hz, View.ld_unit_zero (S := S24x4) hz]

end Cert.KernelIdeal.Confusion

end
-- ==== Proof.Accum.lean ====
/-
  The accumulator, point by point, and the array the region leaves.  The grid is 2 row blocks × 8 lane chunks, walked
  chunk by chunk within a row block: point `n` works on row block `n / 8` and lane chunk `n % 8`.  After point `n` the
  accumulator holds, at row `p` and column `q`, the sum of product `q` over chunks `0 … n % 8` of row `24 (n / 8) + p`
  (induction on the point: a reset starts the sum afresh, any other point appends its chunk).  The eighth chunk's point
  writes the accumulator out as block `n / 8` of the [48, 4] result, so that array ends holding every row's whole sums.
-/
import proofs.«159307_j31198642438436_1_alg».proof.Proof.Payload
import proofs.«159307_j31198642438436_1_alg».proof.Proof.Pieces
import Idealize.ShloMosaic.Lib.StableHlo.Run

noncomputable section

namespace Cert.KernelIdeal.Confusion

open Cert.KernelIdeal Cert.KernelIdeal.Gen Cert.Confusion
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The predictions and the truths as the region finds them: [48, 262144] arrays. -/
abbrev parr (c : Dev nD) : FVec Ideal S48x262144 .f32 := V m c main_v0
abbrev tarr (c : Dev nD) : FVec Ideal S48x262144 .f32 := V m c main_v1
/-- Their blocks at point `t`. -/
abbrev pblk (c : Dev nD) (t : Fin cfg0.N) : FVec Ideal S24x32768 .f32 := iblk m c 0 t
abbrev tblk (c : Dev nD) (t : Fin cfg0.N) : FVec Ideal S24x32768 .f32 := iblk m c 1 t

/-- The index maps over the grid: the inputs' block is (row block, lane chunk) of the point, the output's (row block, 0). -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0 :=
  (by decide +kernel : ∀ t : Fin grid0.N, _)

/-- Entry `(p, l)` of the predictions' block at point `t` is entry `(24 (t / 8) + p, 32768 (t % 8) + l)` of the array. -/
theorem pblk_apply (c : Dev nD) (t : Fin cfg0.N) (p : Fin 24) (l : Fin 32768) :
    pblk m c t (ix2 p l) = parr m c (ix2 (row (t.val / 8) p) (col (t.val % 8) l)) := by
  have hN : t.val < 16 := lt_of_lt_of_eq t.isLt N_0
  obtain ⟨e0, e1, -, -, -, -⟩ := idx_facts t
  show V m c main_v0 (((cfg0.win 0).blk t).view.emb (ix2 p l)) = V m c main_v0 _
  refine congrArg (V m c main_v0) (funext fun a => Fin.ext ?_)
  have hp := p.isLt
  have hl := l.isLt
  match a with
  | ⟨0, _⟩ =>
    show win0_0.index t (0 : Fin 2) * 24 + 1 * p.val = (24 * (t.val / 8) + p.val) % 48
    omega
  | ⟨1, _⟩ =>
    show win0_0.index t (1 : Fin 2) * 32768 + 1 * l.val = (32768 * (t.val % 8) + l.val) % 262144
    omega

/-- The same for the truths. -/
theorem tblk_apply (c : Dev nD) (t : Fin cfg0.N) (p : Fin 24) (l : Fin 32768) :
    tblk m c t (ix2 p l) = tarr m c (ix2 (row (t.val / 8) p) (col (t.val % 8) l)) := by
  have hN : t.val < 16 := lt_of_lt_of_eq t.isLt N_0
  obtain ⟨-, -, e2, e3, -, -⟩ := idx_facts t
  show V m c main_v1 (((cfg0.win 1).blk t).view.emb (ix2 p l)) = V m c main_v1 _
  refine congrArg (V m c main_v1) (funext fun a => Fin.ext ?_)
  have hp := p.isLt
  have hl := l.isLt
  match a with
  | ⟨0, _⟩ =>
    show win0_1.index t (0 : Fin 2) * 24 + 1 * p.val = (24 * (t.val / 8) + p.val) % 48
    omega
  | ⟨1, _⟩ =>
    show win0_1.index t (1 : Fin 2) * 32768 + 1 * l.val = (32768 * (t.val % 8) + l.val) % 262144
    omega

/-- So a point's lane sums are the chunk sums of its rows. -/
theorem blockSum_eq (c : Dev nD) (t : Fin cfg0.N) (p : Fin 24) (q : Fin 4) :
    blockSum (pblk m c t) (tblk m c t) p q
      = chunkSum (parr m c) (tarr m c) (row (t.val / 8) p) q (t.val % 8) := by
  unfold blockSum chunkSum
  exact Finset.sum_congr rfl fun l _ => by rw [pblk_apply, tblk_apply]

/-- THE ACCUMULATOR after point `n`: the chunk sums of chunks `0 … n % 8` of the point's rows. -/
theorem acc_eq (c : Dev nD) : ∀ (n : ℕ) (h : n < cfg0.N) (p : Fin 24) (q : Fin 4),
    (outsAt0 m c n h).2 (ix2 p q)
      = ∑ k ∈ Finset.range (n % 8 + 1), chunkSum (parr m c) (tarr m c) (row (n / 8) p) q k
  | 0, h, p, q => by
    rw [outsAt0_A m c ⟨0, h⟩ rfl (by show ¬0 % 8 = 7; decide)]
    dsimp only
    refine (congrFun (sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (pblk m c ⟨0, h⟩) (tblk m c ⟨0, h⟩)) (ix2 p q)).trans ?_
    refine (pay2_apply _ _ _ p q).trans ?_
    rw [pay1_apply, zero_add, blockSum_eq m c ⟨0, h⟩ p q]
    exact (Finset.sum_range_one _).symm
  | n + 1, h, p, q => by
    have hN : n + 1 < 16 := lt_of_lt_of_eq h N_0
    by_cases h0 : (n + 1) % 8 = 0
    · rw [outsAt0_A m c ⟨n + 1, h⟩ h0 (by dsimp only; omega)]
      dsimp only
      refine (congrFun (sout_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (pblk m c ⟨n + 1, h⟩) (tblk m c ⟨n + 1, h⟩)) (ix2 p q)).trans ?_
      refine (pay2_apply _ _ _ p q).trans ?_
      rw [pay1_apply, zero_add, blockSum_eq m c ⟨n + 1, h⟩ p q]
      show chunkSum _ _ (row ((n + 1) / 8) p) q ((n + 1) % 8) = _
      rw [h0]
      exact (Finset.sum_range_one _).symm
    · have hdiv : (n + 1) / 8 = n / 8 := by omega
      have hmod : (n + 1) % 8 = n % 8 + 1 := by omega
      have ih := acc_eq c n (Nat.lt_of_succ_lt h) p q
      by_cases h1 : (n + 1) % 8 = 7
      · rw [outsAt0_C m c ⟨n + 1, h⟩ h0 h1]
        dsimp only
        refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (pblk m c ⟨n + 1, h⟩) (tblk m c ⟨n + 1, h⟩) (outsAt0 m c n (Nat.lt_of_succ_lt h)).2) (ix2 p q)).trans ?_
        refine (pay2_apply _ _ _ p q).trans ?_
        rw [ih, blockSum_eq m c ⟨n + 1, h⟩ p q]
        show _ + chunkSum _ _ (row ((n + 1) / 8) p) q ((n + 1) % 8) = ∑ k ∈ Finset.range ((n + 1) % 8 + 1), chunkSum _ _ (row ((n + 1) / 8) p) q k
        rw [hdiv, hmod, Finset.sum_range_succ _ (n % 8 + 1)]
      · rw [outsAt0_B m c ⟨n + 1, h⟩ h0 h1]
        dsimp only
        refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (pblk m c ⟨n + 1, h⟩) (tblk m c ⟨n + 1, h⟩) (outsAt0 m c n (Nat.lt_of_succ_lt h)).2) (ix2 p q)).trans ?_
        refine (pay2_apply _ _ _ p q).trans ?_
        rw [ih, blockSum_eq m c ⟨n + 1, h⟩ p q]
        show _ + chunkSum _ _ (row ((n + 1) / 8) p) q ((n + 1) % 8) = ∑ k ∈ Finset.range ((n + 1) % 8 + 1), chunkSum _ _ (row ((n + 1) / 8) p) q k
        rw [hdiv, hmod, Finset.sum_range_succ _ (n % 8 + 1)]

/-- At an eighth chunk's point the output block is the accumulator: it is copied out after the update. -/
theorem out_eq_acc (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  exact (out_C (F := Ideal) c (grid0.coords t) (ms0_0 t) (hs0_0 t) (ms0_1 t) (hs0_1 t) (ms0_2 t) (hs0_2 t) scM0_0 (Memref.isWhole_whole _) _ _ (pblk m c t) (tblk m c t) (outsAt0 m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t) scM0_0 (Memref.isWhole_whole _) _ _ (pblk m c t) (tblk m c t) (outsAt0 m c (t.val - 1) (Nat.lt_of_le_of_lt (Nat.sub_le _ _) t.isLt)).2).symm

/-- So there the output block holds its rows' whole sums. -/
theorem out_apply (c : Dev nD) (t : Fin cfg0.N) (h7 : t.val % 8 = 7) (j : S24x4.Idx) :
    (outsAt0 m c t.val t.isLt).1 j = rowSum (parr m c) (tarr m c) (row (t.val / 8) (j 0)) (j 1) := by
  obtain ⟨p, q, rfl⟩ : ∃ (p : Fin 24) (q : Fin 4), j = ix2 p q := ⟨j 0, j 1, eq_ix2 j⟩
  rw [out_eq_acc m c t (by omega) h7, acc_eq m c t.val t.isLt p q, h7]
  exact sum_chunkSum _ _ _ _

/-- Every row's sums, as the [48, 4] array the region writes. -/
def sums (c : Dev nD) : FVec Ideal S48x4 .f32 := fun j => rowSum (parr m c) (tarr m c) (j 0) (j 1)

theorem sums_apply (c : Dev nD) (j : S48x4.Idx) : sums m c j = rowSum (parr m c) (tarr m c) (j 0) (j 1) := rfl

/-- The output's block at point `t`, read out of any [48, 4] array `g`: entry `y` of the block is `g` at the array index
    that `y` has in the block. -/
theorem read_blk (g : FVec Ideal S48x4 .f32) (t : Fin cfg0.N) (y : ((cfg0.win 2).xblock (grid0.coords t)).Idx) :
    ((cfg0.win 2).blk t).view.read (Elt Ideal) g y = g (((cfg0.win 2).blk t).view.emb y) := rfl

/-- WHAT A WRITING POINT WRITES BACK is its block of `sums`. -/
theorem flushed_eq (c : Dev nD) (t : Fin cfg0.N) (hf : (cfg0.win 2).flush t = true) :
    (dats m 0 c).flushed 2 t = ((cfg0.win 2).blk t).view.read (Elt Ideal) (sums m c) := by
  have h7 : t.val % 8 = 7 := (flush0_2 t).mp hf
  have hN : t.val < 16 := lt_of_lt_of_eq t.isLt N_0
  obtain ⟨-, -, -, -, e4, e5⟩ := idx_facts t
  show (cfg0.win 2).cut (grid0.coords t) ((dats m 0 c).after 2 t) = _
  rw [after0_2]
  funext y
  refine (out_apply m c t h7 ((cfg0.win 2).xinj (grid0.coords t) y)).trans ?_
  refine Eq.trans ?_ (read_blk (sums m c) t y).symm
  have hy0 : (y 0).val < 24 := (y 0).isLt
  have hy1 : (y 1).val < 4 := (y 1).isLt
  have hr : row (t.val / 8) ((cfg0.win 2).xinj (grid0.coords t) y 0) = (((cfg0.win 2).blk t).view.emb y) 0 := Fin.ext (by
    show (24 * (t.val / 8) + (y 0).val) % 48 = win0_2.index t (0 : Fin 2) * 24 + 1 * (y 0).val
    omega)
  have hq : (cfg0.win 2).xinj (grid0.coords t) y 1 = (((cfg0.win 2).blk t).view.emb y) 1 := Fin.ext (by
    show (y 1).val = win0_2.index t (1 : Fin 2) * 4 + 1 * (y 1).val
    omega)
  exact (congrArg₂ (rowSum (parr m c) (tarr m c)) hr hq).trans (sums_apply m c (((cfg0.win 2).blk t).view.emb y)).symm

/-- An index of the [48, 4] array is in point `t`'s block iff each coordinate is in the block's range. -/
theorem mem_blk (t : Fin cfg0.N) (i : S48x4.Idx) :
    i ∈ ((cfg0.win 2).blk t).view.set ↔ ∀ a : Fin 2, win0_2.index t a * S24x4.size a ≤ (i a).val ∧ (i a).val < win0_2.index t a * S24x4.size a + S24x4.size a := by
  show i ∈ ((View.whole main_v2).slice (win0_2.rect t)).set ↔ _
  rw [View.set_slice_whole, Rect.mem_set_unit]
  exact Iff.rfl

/-- Every row is written by the eighth chunk's point of its row block. -/
theorem cover (i : S48x4.Idx) : ∃ t : Fin cfg0.N, (cfg0.win 2).flush t = true ∧ i ∈ ((cfg0.win 2).blk t).view.set := by
  have hi0 : (i 0).val < 48 := (i 0).isLt
  have hi1 : (i 1).val < 4 := (i 1).isLt
  have ht : 8 * ((i 0).val / 24) + 7 < cfg0.N := by rw [show cfg0.N = 16 from N_0]; omega
  refine ⟨⟨8 * ((i 0).val / 24) + 7, ht⟩, (flush0_2 _).mpr (by dsimp only; omega), ?_⟩
  rw [mem_blk]
  obtain ⟨-, -, -, -, e4, e5⟩ := idx_facts ⟨8 * ((i 0).val / 24) + 7, ht⟩
  dsimp only at e4
  intro a
  match a with
  | ⟨0, _⟩ =>
    show win0_2.index ⟨8 * ((i 0).val / 24) + 7, ht⟩ (0 : Fin 2) * 24 ≤ (i 0).val ∧ (i 0).val < win0_2.index ⟨8 * ((i 0).val / 24) + 7, ht⟩ (0 : Fin 2) * 24 + 24
    omega
  | ⟨1, _⟩ =>
    show win0_2.index ⟨8 * ((i 0).val / 24) + 7, ht⟩ (1 : Fin 2) * 4 ≤ (i 1).val ∧ (i 1).val < win0_2.index ⟨8 * ((i 0).val / 24) + 7, ht⟩ (1 : Fin 2) * 4 + 4
    omega

/-- THE ARRAY the region leaves: every row's whole sums. -/
theorem final (c : Dev nD) : (dats m 0 c).arrAt 2 cfg0.N = sums m c :=
  (dats m 0 c).arrAt_eq_of_cover 2 (sums m c) (flushed_eq m c) cover

end Cert.KernelIdeal.Confusion

end
-- ==== Proof.KernelValue.lean ====
/-
  The kernel's result as a function of its arguments.  Before the region the two arguments are flattened to [48, 262144]:
  row `3 b + ch` is image `(b, ch)` laid out pixel row by pixel row.  After it the [48, 4] array of row sums is reshaped to
  [16, 3, 4]: entry `(b, ch, q)` is entry `(3 b + ch, q)`.  So the result is the confusion sums of the arguments.
-/
import proofs.«159307_j31198642438436_1_alg».proof.Proof.Accum

noncomputable section

namespace Cert.KernelIdeal.Confusion

open Cert.KernelIdeal Cert.KernelIdeal.Gen Cert.Confusion
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region finds the predictions as the first argument flattened, -/
theorem parr_eq (c : Dev nD) :
    parr m c = shapeCast S48x262144 (m ((c : Thread nD τ).loc main_arg0)) shapeCasts_S16x3x512x512_S48x262144 := by
  show StableHlo.after hostOps0 (fun b => m (c, b)) (Proc.devRef .tc main_v0) = _
  after_results
  rfl

/-- and the truths as the second. -/
theorem tarr_eq (c : Dev nD) :
    tarr m c = shapeCast S48x262144 (m ((c : Thread nD τ).loc main_arg1)) shapeCasts_S16x3x512x512_S48x262144 := by
  show StableHlo.after hostOps0 (fun b => m (c, b)) (Proc.devRef .tc main_v1) = _
  after_results
  rfl

/-- The row of the flattened arrays that holds image `(b, ch)`. -/
def imageRow (b : Fin 16) (ch : Fin 3) : Fin 48 := ⟨3 * b.val + ch.val, by have := b.isLt; have := ch.isLt; omega⟩

/-- Entry `j` of that row is the image's pixel `(j / 512, j % 512)`. -/
theorem flat_apply (x : FVec Ideal S16x3x512x512 .f32) (b : Fin 16) (ch : Fin 3) (j : Fin 262144) :
    shapeCast S48x262144 x shapeCasts_S16x3x512x512_S48x262144 (ix2 (imageRow b ch) j) = x (pixel b ch j) := by
  have hb := b.isLt
  have hc := ch.isLt
  have hj := j.isLt
  exact shapeCast_apply x shapeCasts_S16x3x512x512_S48x262144 (ix2 (imageRow b ch) j) (pixel b ch j) (by
    rw [Shape.rowMajor_val_four, Shape.rowMajor_val_two]
    show ((b.val * 3 + ch.val) * 512 + j.val / 512) * 512 + j.val % 512 = (3 * b.val + ch.val) * 262144 + j.val
    omega)

/-- The row sums reshaped to [16, 3, 4] are the confusion sums of the arguments. -/
theorem result_eq (c : Dev nD) :
    shapeCast S16x3x4 (sums m c) shapeCasts_S48x4_S16x3x4
      = confusion (m ((c : Thread nD τ).loc main_arg0)) (m ((c : Thread nD τ).loc main_arg1)) := by
  funext i
  obtain ⟨b, ch, q, rfl⟩ : ∃ (b : Fin 16) (ch : Fin 3) (q : Fin 4), i = ix3 b ch q := ⟨i 0, i 1, i 2, eq_ix3 i⟩
  have hb := b.isLt
  have hc := ch.isLt
  have hq := q.isLt
  refine (shapeCast_apply (sums m c) shapeCasts_S48x4_S16x3x4 (ix3 b ch q) (ix2 (imageRow b ch) q) (by
    rw [Shape.rowMajor_val_two, Shape.rowMajor_val_three]
    show (3 * b.val + ch.val) * 4 + q.val = (b.val * 3 + ch.val) * 4 + q.val
    omega)).trans ?_
  show rowSum (parr m c) (tarr m c) (imageRow b ch) q = _
  unfold rowSum confusion
  refine Finset.sum_congr rfl fun j _ => ?_
  rw [parr_eq, tarr_eq, flat_apply, flat_apply]

/-- The reshape after the region, applied to the array the region leaves. -/
theorem tail_eq (c : Dev nD) :
    Pipeline.afterTail₀ cfgs (dats m) 0 (V0 m) [hostOps1] c main_v3
      = shapeCast S16x3x4 (sums m c) shapeCasts_S48x4_S16x3x4 := by
  unfold Pipeline.afterTail₀
  show StableHlo.after hostOps1 _ (Proc.devRef .tc main_v3) = _
  after_results
  exact congrArg (fun x => shapeCast S16x3x4 x shapeCasts_S48x4_S16x3x4)
    ((Pipeline.withArrays_arr spec0 launch0.win.arr_inj c _ _ 2).trans (final m c))

/-- THE KERNEL'S RUN, READ: every weakly fair execution terminates with the result at the confusion sums of the
    arguments, the arguments unchanged. -/
theorem run : θ_run defs (onTc (τ := τ) (main (F := Ideal))) ⟨m, fun _ => 0, ρ⟩ fun r => ∀ c : Dev nD,
      r.2.mem ((c.tc : Thread nD τ).loc main_v3)
        = confusion (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(((h c).2 main_v3 (Pipeline.mem_restRefs_of main_v3 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Confusion

end
-- ==== Proof.RefValue.lean ====
/-
  The reference computes the confusion sums.  It flattens each 512 × 512 image to 262144 entries, forms the four
  entrywise products, sums each along the flattened axis starting from zero, and stacks the four [16, 3] results along a
  new last axis.  So entry `(b, ch, q)` of its result is `0 +` the sum over the image's pixels of product `q`, and the
  flattened entry `j` of image `(b, ch)` is pixel `(j / 512, j % 512)`.
-/
import proofs.«159307_j31198642438436_1_alg».proof.Proof.Spec
import proofs.«159307_j31198642438436_1_alg».proof.Proof.Gen.ReferenceIdeal.Run
import proofs.«159307_j31198642438436_1_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.Confusion

open Cert.ReferenceIdeal Cert.ReferenceIdeal.Gen Cert.ReferenceIdeal.Read Cert.Confusion
open Idealize.ShloMosaic Idealize.ShloMosaic.TcCoe Idealize.ShloMosaic.ValueIdx

/-- Flattened entry `k` of image `(b, ch)` is read from pixel `(k / 512, k % 512)` of the argument. -/
theorem flat_eq (b : Fin 16) (ch : Fin 3) (k : Fin 262144) :
    idx_main_v0 (ix3 b ch k) = pixel b ch k := by
  have hb := b.isLt
  have hc := ch.isLt
  have hk := k.isLt
  funext a
  apply Fin.ext
  match a with
  | ⟨0, _⟩ => show ((b.val * 3 + ch.val) * 262144 + k.val) / 786432 = b.val; omega
  | ⟨1, _⟩ => show ((b.val * 3 + ch.val) * 262144 + k.val) / 262144 % 3 = ch.val; omega
  | ⟨2, _⟩ => show ((b.val * 3 + ch.val) * 262144 + k.val) / 512 % 512 = k.val / 512; omega
  | ⟨3, _⟩ => show ((b.val * 3 + ch.val) * 262144 + k.val) % 512 = k.val % 512; omega

/-- The index a summed-and-kept entry `(b, ch, 0)` reads its `k`-th summand at. -/
theorem summand_idx (b : Fin 16) (ch : Fin 3) (u : Fin 1) (k : Fin 262144) :
    idx_main_v3 (idx_main_v18 (ix3 b ch u)) k = ix3 b ch k := by
  funext a
  match a with
  | ⟨0, _⟩ => rfl
  | ⟨1, _⟩ => rfl
  | ⟨2, _⟩ => rfl

/-- Column 0: the sum of `p·t`. -/
theorem col0 (x0 x1 : FVec Ideal S16x3x512x512 .f32) (b : Fin 16) (ch : Fin 3) (u : Fin 1) :
    val_main_v18 (F := Ideal) x0 x1 (ix3 b ch u)
      = ∑ k : Fin 262144, term 0 (x0 (pixel b ch k)) (x1 (pixel b ch k)) := by
  rw [val_main_v18_apply, val_main_v3_apply]
  refine (congrArg (· + _) Ideal.ofBits_zero_f32).trans ((zero_add _).trans ?_)
  refine Finset.sum_congr rfl fun k _ => ?_
  rw [summand_idx, val_main_v2_apply, val_main_v0_apply, val_main_v1_apply]
  show x0 (idx_main_v0 (ix3 b ch k)) * x1 (idx_main_v0 (ix3 b ch k)) = _
  rw [flat_eq]
  rfl

/-- Column 1: the sum of `(1-p)·(1-t)`. -/
theorem col1 (x0 x1 : FVec Ideal S16x3x512x512 .f32) (b : Fin 16) (ch : Fin 3) (u : Fin 1) :
    val_main_v19 (F := Ideal) x0 x1 (ix3 b ch u)
      = ∑ k : Fin 262144, term 1 (x0 (pixel b ch k)) (x1 (pixel b ch k)) := by
  rw [val_main_v19_apply, val_main_v9_apply]
  refine (congrArg (· + _) Ideal.ofBits_zero_f32).trans ((zero_add _).trans ?_)
  refine Finset.sum_congr rfl fun k _ => ?_
  show val_main_v8 (F := Ideal) x0 x1 (idx_main_v3 (idx_main_v18 (ix3 b ch u)) k) = _
  rw [summand_idx, val_main_v8_apply, val_main_v5_apply, val_main_v7_apply, val_main_v4_apply, val_main_v6_apply,
    val_main_v0_apply, val_main_v1_apply]
  show (one - x0 (idx_main_v0 (ix3 b ch k))) * (one - x1 (idx_main_v0 (ix3 b ch k))) = _
  rw [flat_eq]
  rfl

/-- Column 2: the sum of `p·(1-t)`. -/
theorem col2 (x0 x1 : FVec Ideal S16x3x512x512 .f32) (b : Fin 16) (ch : Fin 3) (u : Fin 1) :
    val_main_v20 (F := Ideal) x0 x1 (ix3 b ch u)
      = ∑ k : Fin 262144, term 2 (x0 (pixel b ch k)) (x1 (pixel b ch k)) := by
  rw [val_main_v20_apply, val_main_v13_apply]
  refine (congrArg (· + _) Ideal.ofBits_zero_f32).trans ((zero_add _).trans ?_)
  refine Finset.sum_congr rfl fun k _ => ?_
  show val_main_v12 (F := Ideal) x0 x1 (idx_main_v3 (idx_main_v18 (ix3 b ch u)) k) = _
  rw [summand_idx, val_main_v12_apply, val_main_v11_apply, val_main_v10_apply, val_main_v0_apply, val_main_v1_apply]
  show x0 (idx_main_v0 (ix3 b ch k)) * (one - x1 (idx_main_v0 (ix3 b ch k))) = _
  rw [flat_eq]
  rfl

/-- Column 3: the sum of `(1-p)·t`. -/
theorem col3 (x0 x1 : FVec Ideal S16x3x512x512 .f32) (b : Fin 16) (ch : Fin 3) (u : Fin 1) :
    val_main_v21 (F := Ideal) x0 x1 (ix3 b ch u)
      = ∑ k : Fin 262144, term 3 (x0 (pixel b ch k)) (x1 (pixel b ch k)) := by
  rw [val_main_v21_apply, val_main_v17_apply]
  refine (congrArg (· + _) Ideal.ofBits_zero_f32).trans ((zero_add _).trans ?_)
  refine Finset.sum_congr rfl fun k _ => ?_
  show val_main_v16 (F := Ideal) x0 x1 (idx_main_v3 (idx_main_v18 (ix3 b ch u)) k) = _
  rw [summand_idx, val_main_v16_apply, val_main_v15_apply, val_main_v14_apply, val_main_v0_apply, val_main_v1_apply]
  show (one - x0 (idx_main_v0 (ix3 b ch k))) * x1 (idx_main_v0 (ix3 b ch k)) = _
  rw [flat_eq]
  rfl

/-- Four [16, 3, 1] arrays stacked along the last axis, read at `(b, ch, q)`: array `q` at `(b, ch, 0)`. -/
theorem stack_apply (c0 c1 c2 c3 : FVec Ideal S16x3x1 .f32) (b : Fin 16) (ch : Fin 3) (q : Fin 4) :
    concatenate S16x3x4 2 [⟨S16x3x1, c0⟩, ⟨S16x3x1, c1⟩, ⟨S16x3x1, c2⟩, ⟨S16x3x1, c3⟩]
        concatenates_S16x3x1_S16x3x1_S16x3x1_S16x3x1_S16x3x4_d2 (ix3 b ch q)
      = (match q with | ⟨0, _⟩ => c0 | ⟨1, _⟩ => c1 | ⟨2, _⟩ => c2 | ⟨3, _⟩ => c3) (ix3 b ch (0 : Fin 1)) := by
  have hoff : ∀ (q' : Fin 4) (a : Fin S16x3x1.rank), a.cast (rfl : S16x3x1.rank = S16x3x4.rank) ≠ (2 : Fin 3) →
      ((ix3 b ch (0 : Fin 1) : S16x3x1.Idx) a).val = ((ix3 b ch q' : S16x3x4.Idx) (a.cast rfl)).val := by
    intro q' a ha
    match a with
    | ⟨0, _⟩ => rfl
    | ⟨1, _⟩ => rfl
    | ⟨2, _⟩ => exact absurd rfl ha
  match q with
  | ⟨0, hq⟩ => exact concatenate_apply_piece (2 : Fin 3) [⟨S16x3x1, c0⟩, ⟨S16x3x1, c1⟩, ⟨S16x3x1, c2⟩, ⟨S16x3x1, c3⟩] _ (ix3 b ch ⟨0, hq⟩) 0 (by simp) S16x3x1 c0 rfl rfl 0 rfl (ix3 b ch 0) (hoff _) rfl
  | ⟨1, hq⟩ => exact concatenate_apply_piece (2 : Fin 3) [⟨S16x3x1, c0⟩, ⟨S16x3x1, c1⟩, ⟨S16x3x1, c2⟩, ⟨S16x3x1, c3⟩] _ (ix3 b ch ⟨1, hq⟩) 1 (by simp) S16x3x1 c1 rfl rfl 1 rfl (ix3 b ch 0) (hoff _) rfl
  | ⟨2, hq⟩ => exact concatenate_apply_piece (2 : Fin 3) [⟨S16x3x1, c0⟩, ⟨S16x3x1, c1⟩, ⟨S16x3x1, c2⟩, ⟨S16x3x1, c3⟩] _ (ix3 b ch ⟨2, hq⟩) 2 (by simp) S16x3x1 c2 rfl rfl 2 rfl (ix3 b ch 0) (hoff _) rfl
  | ⟨3, hq⟩ => exact concatenate_apply_piece (2 : Fin 3) [⟨S16x3x1, c0⟩, ⟨S16x3x1, c1⟩, ⟨S16x3x1, c2⟩, ⟨S16x3x1, c3⟩] _ (ix3 b ch ⟨3, hq⟩) 3 (by simp) S16x3x1 c3 rfl rfl 3 rfl (ix3 b ch 0) (hoff _) rfl

/-- THE REFERENCE'S RESULT is the confusion sums of its arguments. -/
theorem ref_eq (x0 x1 : FVec Ideal S16x3x512x512 .f32) :
    val_main_v22 (F := Ideal) x0 x1 = confusion x0 x1 := by
  funext i
  obtain ⟨b, ch, q, rfl⟩ : ∃ (b : Fin 16) (ch : Fin 3) (q : Fin 4), i = ix3 b ch q := ⟨i 0, i 1, i 2, eq_ix3 i⟩
  unfold val_main_v22
  refine (stack_apply _ _ _ _ b ch q).trans ?_
  unfold confusion
  match q with
  | ⟨0, _⟩ => exact col0 x0 x1 b ch 0
  | ⟨1, _⟩ => exact col1 x0 x1 b ch 0
  | ⟨2, _⟩ => exact col2 x0 x1 b ch 0
  | ⟨3, _⟩ => exact col3 x0 x1 b ch 0

end Cert.ReferenceIdeal.Confusion

end
-- ==== Proof.lean ====
/-
  A per-image confusion matrix: for predictions `p` and truths `t` of shape [16, 3, 512, 512], entry `(b, ch, q)` of the
  result is the sum over the 262144 pixels of image `(b, ch)` of `p·t`, `(1-p)·(1-t)`, `p·(1-t)` or `(1-p)·t` for
  `q = 0, 1, 2, 3`.  The kernel flattens the arrays to [48, 262144], walks each block of 24 rows in eight chunks of 32768
  lanes, adds each chunk's four lane sums into a [24, 4] accumulator that it zeroes at the first chunk and writes out
  after the eighth, and reshapes the [48, 4] result to [16, 3, 4]; the reference sums each flattened image whole and
  stacks the four sums.  Over the extended reals a sum over 262144 entries is the sum over eight chunks of the chunks'
  sums (addition is commutative and associative; no finiteness is used), `0 + x = x`, and both programs read pixel
  `(j / 512, j % 512)` of image `(b, ch)` for the flattened entry `j`: the two results are the same function of the
  arguments (`Cert.Confusion.confusion`).  The idealization rewrote nothing, so `preserves` is trivial.
-/
import proofs.«159307_j31198642438436_1_alg».proof.Defs
import proofs.«159307_j31198642438436_1_alg».proof.Proof.Gen.Kernel
import proofs.«159307_j31198642438436_1_alg».proof.Proof.Gen.Kernel.Frame
import proofs.«159307_j31198642438436_1_alg».proof.Proof.Gen.KernelIdeal
import proofs.«159307_j31198642438436_1_alg».proof.Proof.Gen.KernelIdeal.Frame
import proofs.«159307_j31198642438436_1_alg».proof.Proof.Gen.ReferenceIdeal
import proofs.«159307_j31198642438436_1_alg».proof.Proof.Gen.ReferenceIdeal.Run
import proofs.«159307_j31198642438436_1_alg».proof.Proof.Gen.ReferenceIdeal.Read
import proofs.«159307_j31198642438436_1_alg».proof.Proof.Gen.Pre_finite_inputs
import proofs.«159307_j31198642438436_1_alg».proof.Proof.KernelValue
import proofs.«159307_j31198642438436_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- And the reference: its run with the result dropped. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- Kernel and reference, from memories that agree on the arguments, both end at the confusion sums of the arguments. -/
theorem algebraic : Cert.algebraic_KernelIdeal_ReferenceIdeal := by
  intro m ρ m' ρ' _ hagree
  refine ⟨fun c => Cert.Confusion.confusion
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Confusion.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Confusion.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
